-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel

variable [Facts]

def fn {F : FTy → Type} [FloatOps F] (main_arg0 : FVec F S32768x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  main_v3
-- ==== Kernel.lean ====
abbrev S32768x768 : Shape := ⟨2, ![32768, 768]⟩
abbrev S6 : Shape := ⟨1, ![6]⟩
abbrev S1x6 : Shape := ⟨2, ![1, 6]⟩
abbrev S128x6 : Shape := ⟨2, ![128, 6]⟩
abbrev S768 : Shape := ⟨1, ![768]⟩
abbrev S1x768 : Shape := ⟨2, ![1, 768]⟩
abbrev S2048x768 : Shape := ⟨2, ![2048, 768]⟩

abbrev nBuf : Space → Nat
  | .hbm => 12
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S6, .f32⟩
  | .hbm, ⟨2, _⟩ => ⟨S6, .f32⟩
  | .hbm, ⟨3, _⟩ => ⟨S1x6, .f32⟩
  | .hbm, ⟨4, _⟩ => ⟨S128x6, .f32⟩
  | .hbm, ⟨5, _⟩ => ⟨S768, .f32⟩
  | .hbm, ⟨6, _⟩ => ⟨S1x6, .f32⟩
  | .hbm, ⟨7, _⟩ => ⟨S128x6, .f32⟩
  | .hbm, ⟨8, _⟩ => ⟨S768, .f32⟩
  | .hbm, ⟨9, _⟩ => ⟨S1x768, .f32⟩
  | .hbm, ⟨10, _⟩ => ⟨S1x768, .f32⟩
  | .hbm, ⟨11, _⟩ => ⟨S32768x768, .f32⟩
  | .local _ .vmem, ⟨0, _⟩ => ⟨S2048x768, .f32⟩
  | .local _ .vmem, ⟨1, _⟩ => ⟨S2048x768, .f32⟩
  | .local _ .vmem, ⟨2, _⟩ => ⟨S1x768, .f32⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S6_S1x6 : S6.ShapeCasts S1x6
  bcast_S1x6_S128x6_0_1 : S1x6.BroadcastsInDim S128x6 (![0, 1] : Fin 2 → Fin S128x6.rank)
  shapeCasts_S128x6_S768 : S128x6.ShapeCasts S768
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S32768x768.size a
  hwx0_3 : ∀ i : grid0.Coords, EltTy.bits .f32 = 32 ∨ (Rect.block (s := S32768x768) S2048x768.size (cc0_transform_3 i) (hinb0_3 i)).WholeWords (EltTy.packing .f32)

variable [Facts₀]

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S6 : Shape := ⟨1, ![6]⟩
abbrev S32768x128x6 : Shape := ⟨3, ![32768, 128, 6]⟩
abbrev S1x1x6 : Shape := ⟨3, ![1, 1, 6]⟩

abbrev nBuf : Space → Nat
  | .hbm => 11
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S6, .f32⟩
  | .hbm, ⟨2, _⟩ => ⟨S6, .f32⟩
  | .hbm, ⟨3, _⟩ => ⟨S32768x128x6, .f32⟩
  | .hbm, ⟨4, _⟩ => ⟨S1x1x6, .f32⟩
  | .hbm, ⟨5, _⟩ => ⟨S32768x128x6, .f32⟩
  | .hbm, ⟨6, _⟩ => ⟨S32768x128x6, .f32⟩
  | .hbm, ⟨7, _⟩ => ⟨S1x1x6, .f32⟩
  | .hbm, ⟨8, _⟩ => ⟨S32768x128x6, .f32⟩
  | .hbm, ⟨9, _⟩ => ⟨S32768x128x6, .f32⟩
  | .hbm, ⟨10, _⟩ => ⟨S32768x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S32768x768_S32768x128x6 : S32768x768.ShapeCasts S32768x128x6
  bcast_S6_S1x1x6_2 : S6.BroadcastsInDim S1x1x6 (![2] : Fin 1 → Fin S1x1x6.rank)
  bcast_S1x1x6_S32768x128x6_0_1_2 : S1x1x6.BroadcastsInDim S32768x128x6 (![0, 1, 2] : Fin 3 → Fin S32768x128x6.rank)
  shapeCasts_S32768x128x6_S32768x768 : S32768x128x6.ShapeCasts S32768x768

variable [Facts₀]

class Facts : Prop extends Facts₀ where

variable [Facts]
-- ==== Proof.Spec.lean ====
/-
  The function both programs compute. Columns come in groups of six channels; channel `k` has its own
  scale `a k` and shift `b k`, and every entry is sent to `x · a k + b k` with `k` the column's place in its
  group: `out[r, c] = x[r, c] · a[c mod 6] + b[c mod 6]`. Stated for any float values, since nothing
  here depends on what the product and the sum are.
-/
import Idealize.ShloMosaic.PureOps
import Idealize.ShloMosaic.Lib.ValueIdx

noncomputable section

namespace Cert.Affine6

open Idealize.ShloMosaic

variable {F : FTy → Type} [FloatOps F]

/-- A column's channel: its place in its group of six. -/
def chan (n : Nat) : Fin 6 := ⟨n % 6, Nat.mod_lt _ (by decide)⟩

theorem chan_val (n : Nat) : (chan n).val = n % 6 := rfl

/-- A channel read back from the column it came from, `6 g + q` with `q < 6`. -/
theorem chan_of_group (q : Fin 6) (n : Nat) (h : n % 6 = q.val) : chan n = q := Fin.ext h

/-- `out[r, c] = x[r, c] · a[c mod 6] + b[c mod 6]` over a [32768, 768] array. -/
def affine (a b : Fin 6 → F .f32) (x : (⟨2, ![32768, 768]⟩ : Shape).Idx → F .f32) :
    (⟨2, ![32768, 768]⟩ : Shape).Idx → F .f32 :=
  fun i => FloatOps.addf (FloatOps.mulf (x i) (a (chan (i 1).val))) (b (chan (i 1).val))

end Cert.Affine6

end
-- ==== Proof.KernelTables.lean ====
/-
  The kernel's two [1, 768] rows. Before the launch each six-entry table is viewed as [1, 6], repeated down
  128 rows, flattened to 768 entries and viewed as one row. Flattening puts row g, entry q at position
  6 g + q, so column c of the row holds the table's entry c mod 6.
-/
import proofs.«140788_j82592221102246_1_alg».proof.Proof.Gen.KernelIdeal
import proofs.«140788_j82592221102246_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

variable {F : FTy → Type} [FloatOps F]

/-- A six-entry table laid out as the kernel's [1, 768] row. -/
def tiledRow (tab : (⟨S6, .f32⟩ : BufTy).Contents (Elt F)) : (⟨S1x768, .f32⟩ : BufTy).Contents (Elt F) :=
  shapeCast S1x768
    (shapeCast S768
      (broadcastInDim S128x6 ![0, 1] bcast_S1x6_S128x6_0_1 (shapeCast S1x6 tab shapeCasts_S6_S1x6))
      shapeCasts_S128x6_S768)
    shapeCasts_S768_S1x768

/-- Column `c` of the row holds the table's entry `c mod 6`. -/
theorem tiledRow_apply (tab : (⟨S6, .f32⟩ : BufTy).Contents (Elt F)) (c : Fin 768) :
    tiledRow tab (ix2 (0 : Fin 1) c) = tab (ix1 (Cert.Affine6.chan c.val)) := by
  have hc : c.val < 768 := c.isLt
  unfold tiledRow
  rw [shapeCast_a_1a_apply]
  refine (shapeCast_apply _ _ (ix1 c) (ix2 (⟨c.val / 6, by omega⟩ : Fin 128) (Cert.Affine6.chan c.val)) ?_).trans ?_
  · rw [Shape.rowMajor_val_two, Shape.rowMajor_val_one]
    show c.val / 6 * 6 + c.val % 6 = c.val
    omega
  refine (broadcastInDim_apply _ _ _ (ix2 (⟨c.val / 6, by omega⟩ : Fin 128) (Cert.Affine6.chan c.val))
    (ix2 (0 : Fin 1) (Cert.Affine6.chan c.val)) (fun a => ?_)).trans ?_
  · match a with
    | ⟨0, _⟩ => show (0 : Nat) = if (1 : Nat) = 1 then 0 else c.val / 6; rw [if_pos rfl]
    | ⟨1, _⟩ => show c.val % 6 = if (6 : Nat) = 1 then 0 else c.val % 6; rw [if_neg (by decide)]
  exact shapeCast_a_1a_apply _ _ _ _

/-- The entry of a table constant at `q` is the float its `q`-th word denotes. -/
theorem scale_entry (q : Fin 6) :
    (FloatOps.ofBits .f32 (lit0 (S6.rowMajor (ix1 q))) : F .f32) = FloatOps.ofBits .f32 (lit0 q) := by
  rw [show S6.rowMajor (ix1 q) = q from Fin.ext (Shape.rowMajor_val_one _)]

theorem shift_entry (q : Fin 6) :
    (FloatOps.ofBits .f32 (lit1 (S6.rowMajor (ix1 q))) : F .f32) = FloatOps.ofBits .f32 (lit1 q) := by
  rw [show S6.rowMajor (ix1 q) = q from Fin.ext (Shape.rowMajor_val_one _)]

end Cert.KernelIdeal.Hand

end
-- ==== Proof.KernelValue.lean ====
/-
  What the kernel leaves in its result array. The grid has sixteen points; point t works on rows
  2048 t … 2048 t + 2047 of the argument, all 768 columns, beside the two [1, 768] rows, which every point
  reads whole. At block entry (p, c) the body stores x · s + h with x the argument block's entry (p, c) and
  s, h the two rows' entries at column c. The sixteen blocks tile the array, so the array ends holding, at
  (r, c), the argument's entry times the first row's entry c plus the second row's entry c; and those rows
  hold the tables' entries c mod 6.
-/
import proofs.«140788_j82592221102246_1_alg».proof.Proof.Gen.KernelIdeal.Value
import proofs.«140788_j82592221102246_1_alg».proof.Proof.KernelTables
import proofs.«140788_j82592221102246_1_alg».proof.Proof.Spec
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## One block -/

/-- The one row's entry under column `n`. -/
abbrev rowAt (n : Nat) (h : n < 768) : S1x768.Idx := ix2 (0 : Fin 1) (⟨n, h⟩ : Fin 768)

/-- What the body leaves at block entry `y`: the first block's entry there, times the first row's entry at
    `y`'s column, plus the second row's. -/
theorem block_apply (x0 : Vec F S2048x768 .f32) (x1 x2 : Vec F S1x768 .f32) (y : S2048x768.Idx) :
    out0_3 x0 x1 x2 y
      = FloatOps.addf (FloatOps.mulf (x0 y) (x1 (rowAt (y 1).val (idx2_lt1 y)))) (x2 (rowAt (y 1).val (idx2_lt1 y))) := by
  unfold out0_3
  rw [canon3_eq]
  show FloatOps.addf (FloatOps.mulf (View.ld x0 r0_0 (ix3_0 y)) (View.ld x1 r0_1 (ix3_1 y))) (View.ld x2 r0_1 (ix3_2 y)) = _
  rw [View.ld_unit_zero (S := S2048x768) hz, View.ld_unit_zero (S := S1x768) hz, View.ld_unit_zero (S := S1x768) hz]
  have e0 : ix3_0 y = y := funext fun a => Fin.ext (by match a with | ⟨0, _⟩ => rfl | ⟨1, _⟩ => rfl)
  have e1 : ix3_1 y = rowAt (y 1).val (idx2_lt1 y) := funext fun a => Fin.ext (by match a with | ⟨0, _⟩ => rfl | ⟨1, _⟩ => rfl)
  have e2 : ix3_2 y = rowAt (y 1).val (idx2_lt1 y) := funext fun a => Fin.ext (by match a with | ⟨0, _⟩ => rfl | ⟨1, _⟩ => rfl)
  rw [e0, e1, e2]

/-! ## The blocks as parts of the arrays -/

/-- The printed index maps over the sixteen points: the argument's block moves with the result's, down the
    rows; the two rows' blocks stay put. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The argument's block at point `t` is the argument read where the result's block at `t` lies. -/
theorem argBlock_apply (c : Dev nD) (t : Fin cfg0.N) (y : S2048x768.Idx) :
    (iblk m c 0 t : Vec F S2048x768 .f32) y = V m c main_arg0 (((cfg0.win 3).blk t).view.emb y) := by
  obtain ⟨e0, e1, -⟩ := idx_facts t
  unfold iblk
  rw [View.read_apply]
  show V m c main_arg0 (((cfg0.win 0).blk t).view.emb y) = V m c main_arg0 (((cfg0.win 3).blk t).view.emb y)
  refine congrArg (V m c main_arg0) (funext fun a => Fin.ext ?_)
  match a with
  | ⟨0, _⟩ => show win0_0.index t (0 : Fin 2) * 2048 + 1 * (y 0).val = win0_3.index t (0 : Fin 2) * 2048 + 1 * (y 0).val; omega
  | ⟨1, _⟩ => show win0_0.index t (1 : Fin 2) * 768 + 1 * (y 1).val = win0_3.index t (1 : Fin 2) * 768 + 1 * (y 1).val; omega

/-- The first row's block, at every point, is the row. -/
theorem scaleBlock_apply (c : Dev nD) (t : Fin cfg0.N) (z : S1x768.Idx) :
    (iblk m c 1 t : Vec F S1x768 .f32) z = V m c main_v6 z := by
  obtain ⟨-, -, e2, e3, -⟩ := idx_facts t
  unfold iblk
  rw [View.read_apply]
  show V m c main_v6 (((cfg0.win 1).blk t).view.emb z) = V m c main_v6 z
  congr 1
  funext a
  apply Fin.ext
  match a with
  | ⟨0, _⟩ => show win0_1.index t (0 : Fin 2) * 1 + 1 * (z 0).val = (z 0).val; omega
  | ⟨1, _⟩ => show win0_1.index t (1 : Fin 2) * 768 + 1 * (z 1).val = (z 1).val; omega

/-- The second row's block, at every point, is the row. -/
theorem shiftBlock_apply (c : Dev nD) (t : Fin cfg0.N) (z : S1x768.Idx) :
    (iblk m c 2 t : Vec F S1x768 .f32) z = V m c main_v7 z := by
  obtain ⟨-, -, -, -, e4, e5, -⟩ := idx_facts t
  unfold iblk
  rw [View.read_apply]
  show V m c main_v7 (((cfg0.win 2).blk t).view.emb z) = V m c main_v7 z
  congr 1
  funext a
  apply Fin.ext
  match a with
  | ⟨0, _⟩ => show win0_2.index t (0 : Fin 2) * 1 + 1 * (z 0).val = (z 0).val; omega
  | ⟨1, _⟩ => show win0_2.index t (1 : Fin 2) * 768 + 1 * (z 1).val = (z 1).val; omega

/-! ## The whole array -/

/-- The array the blocks are parts of: at (r, c), the argument's entry times the first row's entry `c` plus
    the second row's, all as the launch finds them. -/
def arrG (c : Dev nD) : S32768x768.Idx → Elt F .f32 := fun i =>
  FloatOps.addf (FloatOps.mulf (V m c main_arg0 i) (V m c main_v6 (rowAt (i 1).val (idx2_lt1 i)))) (V m c main_v7 (rowAt (i 1).val (idx2_lt1 i)))

/-- What point `t` writes back is block `t` of that array. -/
theorem flushed_eq (c : Dev nD) (t : Fin cfg0.N) :
    (dats m 0 c).flushed 3 t = ((cfg0.win 3).blk t).view.read (Elt F) (arrG m c) := by
  obtain ⟨-, -, -, -, -, -, e6, e7⟩ := idx_facts t
  rw [flushed3]
  funext j
  show out0_3 (iblk m c 0 t) (iblk m c 1 t) (iblk m c 2 t) j = arrG m c (((cfg0.win 3).blk t).view.emb j)
  refine (block_apply (iblk m c 0 t) (iblk m c 1 t) (iblk m c 2 t) j).trans ?_
  rw [argBlock_apply m c t j, scaleBlock_apply m c t _, shiftBlock_apply m c t _]
  unfold arrG
  have hcol : rowAt ((((cfg0.win 3).blk t).view.emb j) 1).val (idx2_lt1 (((cfg0.win 3).blk t).view.emb j)) = rowAt (j 1).val (idx2_lt1 j) := by
    funext a
    apply Fin.ext
    match a with
    | ⟨0, _⟩ => rfl
    | ⟨1, _⟩ => show win0_3.index t (1 : Fin 2) * 768 + 1 * (j 1).val = (j 1).val; omega
  rw [hcol]

/-- An index lies in point `t`'s block iff each coordinate is in the block's range on its axis. -/
theorem mem_blk (t : Fin cfg0.N) (i : S32768x768.Idx) :
    i ∈ ((cfg0.win 3).blk t).view.set ↔ ∀ a : Fin 2, win0_3.index t a * S2048x768.size a ≤ (i a).val ∧ (i a).val < win0_3.index t a * S2048x768.size a + S2048x768.size a := by
  show i ∈ ((View.whole main_v8).slice (win0_3.rect t)).set ↔ _
  rw [View.set_slice_whole, Rect.mem_set_unit]
  exact Iff.rfl

/-- Row r lies in the block of point r / 2048: the sixteen blocks tile the array. -/
theorem covered (i : S32768x768.Idx) : ∃ t : Fin cfg0.N, (cfg0.win 3).flush t = true ∧ i ∈ ((cfg0.win 3).blk t).view.set := by
  have hi0 : (i 0).val < 32768 := (i 0).isLt
  have hi1 : (i 1).val < 768 := (i 1).isLt
  have ht : (i 0).val / 2048 < cfg0.N := by show _ < grid0.N; rw [N_0]; omega
  refine ⟨⟨(i 0).val / 2048, ht⟩, flush0_3 _, ?_⟩
  obtain ⟨-, -, -, -, -, -, e6, e7⟩ := idx_facts ⟨(i 0).val / 2048, ht⟩
  have e6' : win0_3.index ⟨(i 0).val / 2048, ht⟩ (0 : Fin 2) = (i 0).val / 2048 := e6
  rw [mem_blk]
  intro a
  match a with
  | ⟨0, _⟩ => show win0_3.index _ (0 : Fin 2) * 2048 ≤ (i 0).val ∧ (i 0).val < win0_3.index _ (0 : Fin 2) * 2048 + 2048; omega
  | ⟨1, _⟩ => show win0_3.index _ (1 : Fin 2) * 768 ≤ (i 1).val ∧ (i 1).val < win0_3.index _ (1 : Fin 2) * 768 + 768; omega

/-- So the result array ends holding `arrG`. -/
theorem final (c : Dev nD) : (dats m 0 c).arrAt 3 cfg0.N = arrG m c :=
  (dats m 0 c).arrAt_eq_of_cover 3 (arrG m c) (fun t _ => flushed_eq m c t) covered

/-! ## The two rows as the launch finds them -/

/-- The first row is the scale table laid out over 768 columns. -/
theorem scaleRow_eq (c : Dev nD) :
    (V m c main_v6 : S1x768.Idx → Elt F .f32) = tiledRow (fun i => FloatOps.ofBits .f32 (lit0 (S6.rowMajor i))) := by
  unfold tiledRow
  dsimp only [V, hostOps0]
  after_results
  rfl

/-- The second row is the shift table laid out over 768 columns. -/
theorem shiftRow_eq (c : Dev nD) :
    (V m c main_v7 : S1x768.Idx → Elt F .f32) = tiledRow (fun i => FloatOps.ofBits .f32 (lit1 (S6.rowMajor i))) := by
  unfold tiledRow
  dsimp only [V, hostOps0]
  after_results
  rfl

/-- The array the kernel leaves is the per-channel affine map of the argument as launched. -/
theorem arrG_eq (c : Dev nD) :
    arrG m c = Cert.Affine6.affine (fun k => FloatOps.ofBits .f32 (lit0 k)) (fun k => FloatOps.ofBits .f32 (lit1 k))
      (m ((c : Thread nD τ).loc main_arg0)) := by
  funext i
  unfold arrG Cert.Affine6.affine
  rw [V_main_arg0, scaleRow_eq, shiftRow_eq]
  unfold rowAt
  rw [tiledRow_apply, tiledRow_apply, scale_entry, shift_entry]

/-! ## The run -/

/-- Every weakly fair execution ends with the result array at the per-channel affine map of the argument, and
    the argument unchanged. -/
theorem run : θ_run defs (onTc (τ := τ) (main (F := F))) ⟨m, fun _ => 0, ρ⟩ fun r => ∀ c : Dev nD,
      r.2.mem ((c : Thread nD τ).loc main_v8)
        = Cert.Affine6.affine (fun k => FloatOps.ofBits .f32 (lit0 k)) (fun k => FloatOps.ofBits .f32 (lit1 k))
            (m ((c : Thread nD τ).loc main_arg0))
      ∧ r.2.mem ((c : Thread nD τ).loc main_arg0) = m ((c : Thread nD τ).loc main_arg0) :=
  (θ_run defs _ _).mono (fun _ h c => ⟨(h c).1.trans ((final m c).trans (arrG_eq m c)), (h c).2⟩)
    (run_blocks m ρ)

end Cert.KernelIdeal.Hand

end
-- ==== Proof.RefRun.lean ====
/-
  The reference program read back: its @main is ten host operations in a row — the two six-entry tables,
  the argument viewed as [32768, 128, 6], each table spread over that shape, a product, a sum, and the view
  back to [32768, 768]. Every weakly fair execution ends with the result array at the composition of those
  operations applied to the argument, and the argument unchanged.
-/
import proofs.«140788_j82592221102246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The table of scales as the program's first constant holds it. -/
abbrev scaleTab : (⟨S6, .f32⟩ : BufTy).Contents (Elt F) := fun i => FloatOps.ofBits .f32 (lit0 (S6.rowMajor i))
/-- The table of shifts as the program's second constant holds it. -/
abbrev shiftTab : (⟨S6, .f32⟩ : BufTy).Contents (Elt F) := fun i => FloatOps.ofBits .f32 (lit1 (S6.rowMajor i))

/-- @main's ten operations, in order. -/
abbrev ops : List (HloOp τ sig (Elt F)) :=
  [ nullary main_cst (fun i => FloatOps.ofBits .f32 (lit0 (S6.rowMajor i))),
    nullary main_cst_0 (fun i => FloatOps.ofBits .f32 (lit1 (S6.rowMajor i))),
    reshape main_arg0 main_v0 rfl shapeCasts_S32768x768_S32768x128x6,
    unary main_cst main_v1 (broadcastInDim S1x1x6 ![2] bcast_S6_S1x1x6_2 : (⟨S6, .f32⟩ : BufTy).Contents (Elt F) → (⟨S1x1x6, .f32⟩ : BufTy).Contents (Elt F)),
    unary main_v1 main_v2 (broadcastInDim S32768x128x6 ![0, 1, 2] bcast_S1x1x6_S32768x128x6_0_1_2 : (⟨S1x1x6, .f32⟩ : BufTy).Contents (Elt F) → (⟨S32768x128x6, .f32⟩ : BufTy).Contents (Elt F)),
    binary main_v0 main_v2 main_v3 (mulf : (⟨S32768x128x6, .f32⟩ : BufTy).Contents (Elt F) → (⟨S32768x128x6, .f32⟩ : BufTy).Contents (Elt F) → (⟨S32768x128x6, .f32⟩ : BufTy).Contents (Elt F)),
    unary main_cst_0 main_v4 (broadcastInDim S1x1x6 ![2] bcast_S6_S1x1x6_2 : (⟨S6, .f32⟩ : BufTy).Contents (Elt F) → (⟨S1x1x6, .f32⟩ : BufTy).Contents (Elt F)),
    unary main_v4 main_v5 (broadcastInDim S32768x128x6 ![0, 1, 2] bcast_S1x1x6_S32768x128x6_0_1_2 : (⟨S1x1x6, .f32⟩ : BufTy).Contents (Elt F) → (⟨S32768x128x6, .f32⟩ : BufTy).Contents (Elt F)),
    binary main_v3 main_v5 main_v6 (addf : (⟨S32768x128x6, .f32⟩ : BufTy).Contents (Elt F) → (⟨S32768x128x6, .f32⟩ : BufTy).Contents (Elt F) → (⟨S32768x128x6, .f32⟩ : BufTy).Contents (Elt F)),
    reshape main_v6 main_v7 rfl shapeCasts_S32768x128x6_S32768x768 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., reshape_bufs_sub .., unary_bufs_sub .., unary_bufs_sub .., binary_bufs_sub ..,
    unary_bufs_sub .., unary_bufs_sub .., binary_bufs_sub .., reshape_bufs_sub ..⟩

/-- The composition of the ten operations, as a function of the argument array. -/
def refTerm (x : (⟨S32768x768, .f32⟩ : BufTy).Contents (Elt F)) : (⟨S32768x768, .f32⟩ : BufTy).Contents (Elt F) :=
  shapeCast S32768x768
    (addf
      (mulf (shapeCast S32768x128x6 x shapeCasts_S32768x768_S32768x128x6)
        (broadcastInDim S32768x128x6 ![0, 1, 2] bcast_S1x1x6_S32768x128x6_0_1_2
          (broadcastInDim S1x1x6 ![2] bcast_S6_S1x1x6_2 (scaleTab (F := F)))))
      (broadcastInDim S32768x128x6 ![0, 1, 2] bcast_S1x1x6_S32768x128x6_0_1_2
        (broadcastInDim S1x1x6 ![2] bcast_S6_S1x1x6_2 (shiftTab (F := F)))))
    shapeCasts_S32768x128x6_S32768x768

/-- On every device, from any memory with zero counters: every weakly fair execution of @main terminates with the
    result array at the operations' composition of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (by unfold refTerm; after_results; rfl),
      (h c main_arg0).trans (by after_results)⟩)
    (run_seq scopedRefs_eq scopedSems_eq defs main (fun _ => ops) main_eq (fun _ => ops_sub) m ρ)

end Cert.ReferenceIdeal.Hand

end
-- ==== Proof.RefValue.lean ====
/-
  The reference's composed term is the per-channel affine map. Entry (r, c) of the result is entry
  (r, c / 6, c mod 6) of the [32768, 128, 6] view, because both sit at row-major position 768 r + c; there
  the argument's view holds x[r, c], and each table, spread over the two leading axes, holds its entry c mod 6.
-/
import proofs.«140788_j82592221102246_1_alg».proof.Proof.RefRun
import proofs.«140788_j82592221102246_1_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx

variable {F : FTy → Type} [FloatOps F]

/-- A six-entry table spread over the two leading axes of [32768, 128, 6] holds, at (r, g, q), its entry q. -/
theorem spread_apply (tab : (⟨S6, .f32⟩ : BufTy).Contents (Elt F)) (r : Fin 32768) (g : Fin 128) (q : Fin 6) :
    broadcastInDim S32768x128x6 ![0, 1, 2] bcast_S1x1x6_S32768x128x6_0_1_2
      (broadcastInDim S1x1x6 ![2] bcast_S6_S1x1x6_2 tab) (ix3 r g q) = tab (ix1 q) := by
  refine (broadcastInDim_apply _ _ _ (ix3 r g q) (ix3 (0 : Fin 1) (0 : Fin 1) q) (fun a => ?_)).trans ?_
  · match a with
    | ⟨0, _⟩ => show (0 : Nat) = if (1 : Nat) = 1 then 0 else r.val; rw [if_pos rfl]
    | ⟨1, _⟩ => show (0 : Nat) = if (1 : Nat) = 1 then 0 else g.val; rw [if_pos rfl]
    | ⟨2, _⟩ => show q.val = if (6 : Nat) = 1 then 0 else q.val; rw [if_neg (by decide)]
  · refine broadcastInDim_apply _ _ _ (ix3 (0 : Fin 1) (0 : Fin 1) q) (ix1 q) (fun a => ?_)
    match a with
    | ⟨0, _⟩ => show q.val = if (6 : Nat) = 1 then 0 else q.val; rw [if_neg (by decide)]

/-- The entry of a table constant at `q` is the float its `q`-th word denotes. -/
theorem scaleTab_apply (q : Fin 6) : scaleTab (F := F) (ix1 q) = FloatOps.ofBits .f32 (lit0 q) := by
  show FloatOps.ofBits .f32 (lit0 (S6.rowMajor (ix1 q))) = _
  rw [show S6.rowMajor (ix1 q) = q from Fin.ext (Shape.rowMajor_val_one _)]

theorem shiftTab_apply (q : Fin 6) : shiftTab (F := F) (ix1 q) = FloatOps.ofBits .f32 (lit1 q) := by
  show FloatOps.ofBits .f32 (lit1 (S6.rowMajor (ix1 q))) = _
  rw [show S6.rowMajor (ix1 q) = q from Fin.ext (Shape.rowMajor_val_one _)]

/-- The reference's result, index by index: `x[r, c] · scale[c mod 6] + shift[c mod 6]`. -/
theorem refTerm_eq (x : (⟨S32768x768, .f32⟩ : BufTy).Contents (Elt F)) :
    refTerm x = Cert.Affine6.affine (fun k => FloatOps.ofBits .f32 (lit0 k)) (fun k => FloatOps.ofBits .f32 (lit1 k)) x := by
  funext i
  have hi0 : (i 0).val < 32768 := (i 0).isLt
  have hi1 : (i 1).val < 768 := (i 1).isLt
  have hpos : (S32768x128x6.rowMajor (ix3 (⟨(i 0).val, hi0⟩ : Fin 32768) (⟨(i 1).val / 6, by omega⟩ : Fin 128) (Cert.Affine6.chan (i 1).val))).val
      = (S32768x768.rowMajor i).val := by
    rw [Shape.rowMajor_val_three, Shape.rowMajor_val_two]
    show ((i 0).val * 128 + (i 1).val / 6) * 6 + (i 1).val % 6 = (i 0).val * 768 + (i 1).val
    omega
  unfold refTerm
  refine (shapeCast_apply _ _ i (ix3 (⟨(i 0).val, hi0⟩ : Fin 32768) (⟨(i 1).val / 6, by omega⟩ : Fin 128) (Cert.Affine6.chan (i 1).val)) hpos).trans ?_
  show FloatOps.addf (FloatOps.mulf (shapeCast S32768x128x6 x shapeCasts_S32768x768_S32768x128x6 _) _) _ = _
  rw [shapeCast_apply x shapeCasts_S32768x768_S32768x128x6 _ i hpos.symm, spread_apply, spread_apply, scaleTab_apply, shiftTab_apply]
  rfl

end Cert.ReferenceIdeal.Hand

end
-- ==== Proof.lean ====
/-
  The kernel and its reference compute one function: `out[r, c] = x[r, c] · scale[c mod 6] + shift[c mod 6]`
  over a [32768, 768] array, with six scales and six shifts that both programs hold as the same twelve words.

  The reference views the argument as [32768, 128, 6], spreads each table along the last axis, multiplies, adds,
  and views the result back; entry (r, c) is entry (r, c / 6, c mod 6) of that view (Proof/RefRun.lean: the ten
  operations run; Proof/RefValue.lean: their composition read at an index). The kernel first lays each table out as
  a [1, 768] row whose column c holds entry c mod 6 (Proof/KernelTables.lean), then sixteen grid points each take
  2048 rows of the argument and store block · row + row; the blocks tile the array (Proof/KernelValue.lean). Both
  results are therefore the same product and sum of the same three numbers at every index, whatever the float
  values are: no law of arithmetic is used, and the finiteness of the input is never opened.

  The kernel rewrites nothing when idealized, so the idealization conjunct is the trivial one.
-/
import proofs.«140788_j82592221102246_1_alg».proof.Defs
import proofs.«140788_j82592221102246_1_alg».proof.Proof.Gen.Kernel
import proofs.«140788_j82592221102246_1_alg».proof.Proof.Gen.Kernel.Frame
import proofs.«140788_j82592221102246_1_alg».proof.Proof.Gen.KernelIdeal
import proofs.«140788_j82592221102246_1_alg».proof.Proof.Gen.KernelIdeal.Frame
import proofs.«140788_j82592221102246_1_alg».proof.Proof.Gen.ReferenceIdeal
import proofs.«140788_j82592221102246_1_alg».proof.Proof.Gen.Pre_finite_inputs
import proofs.«140788_j82592221102246_1_alg».proof.Proof.KernelValue
import proofs.«140788_j82592221102246_1_alg».proof.Proof.RefValue

noncomputable section

namespace Cert.Proof

open Idealize.ShloMosaic Idealize.SL.Sem

/-- The word-level kernel runs, faults nowhere, and leaves its argument as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's ten host operations run and leave the argument as launched. -/
theorem frame_ri : Cert.frame_ReferenceIdeal := fun m ρ _ =>
  (θ_run Cert.ReferenceIdeal.defs _ _).mono (fun _ h c => (h c).2) (Cert.ReferenceIdeal.Hand.run (F := Ideal) m ρ)

/-- No operation was rewritten by the idealization. -/
theorem preserves : Cert.preserves_Kernel_KernelIdeal := trivial

/-- Both programs end with the per-channel affine map of the argument, over the same two tables of words. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [hagree c, Cert.ReferenceIdeal.Hand.refTerm_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
